-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x128 : Shape := ⟨2, ![1600000, 128]⟩
abbrev S1600000 : Shape := ⟨1, ![1600000]⟩
abbrev S_ : Shape := ⟨0, ![]⟩

class Facts : Prop where
  bcast_S_S1600000x128 : S_.BroadcastsInDim S1600000x128 (![] : Fin 0 → Fin S1600000x128.rank)
  reducesTo_S1600000x128_S_d0_1 : S1600000x128.ReducesTo [0, 1] S_
  h_S_ : 0 < S_.numel

variable [Facts]

def fn {F : FTy → Type} [FloatOps F] (main_arg0 : FVec F S1600000x128 .f32) (main_arg1 : IVec S1600000 32) : IVec S_ 1 :=
  let main_v0 : FVec F S1600000x128 .f32 := Host.absf main_arg0
  let main_cst : FVec F S_ .f32 := constant S_ .f32 0x7F800000#32
  let main_v1 : FVec F S1600000x128 .f32 := broadcastInDim S1600000x128 ![] bcast_S_S1600000x128 main_cst
  let main_v2 : IVec S1600000x128 1 := cmpf .olt main_v0 main_v1
  let main_c : IVec S_ 1 := constantI S_ 1 1#1
  let main_v3 : IVec S_ 1 := (fun x v => Host.reduce IntOp.andi x v reducesTo_S1600000x128_S_d0_1 h_S_) main_v2 main_c
  main_v3
-- ==== Kernel.lean ====
abbrev S1600000x128 : Shape := ⟨2, ![1600000, 128]⟩
abbrev S1600000 : Shape := ⟨1, ![1600000]⟩
abbrev S1x1600000 : Shape := ⟨2, ![1, 1600000]⟩
abbrev S102400x128 : Shape := ⟨2, ![102400, 128]⟩
abbrev S1280x128 : Shape := ⟨2, ![1280, 128]⟩
abbrev S1x1280 : Shape := ⟨2, ![1, 1280]⟩
abbrev S6400x128 : Shape := ⟨2, ![6400, 128]⟩
abbrev S6400x1 : Shape := ⟨2, ![6400, 1]⟩
abbrev S6400x1280 : Shape := ⟨2, ![6400, 1280]⟩
abbrev S100000x128 : Shape := ⟨2, ![100000, 128]⟩

abbrev nBuf : Space → Nat
  | .hbm => 6
  | .vmem => 6
  | .smem => 0
  | _ => 0

abbrev bufTy : (tb : Table) → Fin (tcTables nBuf tb) → BufTy
  | .hbm, ⟨0, _⟩ => ⟨S1600000x128, .f32⟩
  | .hbm, ⟨1, _⟩ => ⟨S1600000, .i32⟩
  | .hbm, ⟨2, _⟩ => ⟨S1600000x128, .bf16⟩
  | .hbm, ⟨3, _⟩ => ⟨S1x1600000, .i32⟩
  | .hbm, ⟨4, _⟩ => ⟨S102400x128, .f32⟩
  | .hbm, ⟨5, _⟩ => ⟨S100000x128, .f32⟩
  | .local _ .vmem, ⟨0, _⟩ => ⟨S1280x128, .bf16⟩
  | .local _ .vmem, ⟨1, _⟩ => ⟨S1280x128, .bf16⟩
  | .local _ .vmem, ⟨2, _⟩ => ⟨S1x1280, .i32⟩
  | .local _ .vmem, ⟨3, _⟩ => ⟨S1x1280, .i32⟩
  | .local _ .vmem, ⟨4, _⟩ => ⟨S6400x128, .f32⟩
  | .local _ .vmem, ⟨5, _⟩ => ⟨S6400x128, .f32⟩
  | _, _ => ⟨S1600000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 1250], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1280x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1280 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S6400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  shapeCasts_S1600000_S1x1600000 : S1600000.ShapeCasts S1x1600000
  inb_S6400x128_S6400x128_0_0 : ∀ a, (![0, 0] : Fin 2 → Nat) a + S6400x128.size a ≤ S6400x128.size a
  h_S6400x128 : 0 < S6400x128.numel
  iota_S6400x1_d0_w32 : S6400x1.Iotas .tc 32 [0]
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S6400x1_S6400x1280 : S6400x1.Broadcasts S6400x1280
  broadcasts_S1x1280_S6400x1280 : S1x1280.Broadcasts S6400x1280
  natLt_1_32 : 1 < 32
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  shapeCasts_S6400x128_S6400x128 : S6400x128.ShapeCasts S6400x128
  slices_S102400x128_S100000x128_0_0 : S102400x128.Slices ![0, 0] S100000x128
  dot_S6400x1280_S1280x128_S6400x128_1_0_0_1_n_n_wf : DotDims.WF S6400x1280 S1280x128 S6400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x128.size a ≤ S1600000x128.size a
  hwx0_0 : ∀ i : grid0.Coords, EltTy.bits .bf16 = 32 ∨ (Rect.block (s := S1600000x128) S1280x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1280.size a ≤ S1x1600000.size a
  hwx0_1 : ∀ i : grid0.Coords, EltTy.bits .i32 = 32 ∨ (Rect.block (s := S1x1600000) S1x1280.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x128.size a ≤ S102400x128.size a
  hwx0_2 : ∀ i : grid0.Coords, EltTy.bits .f32 = 32 ∨ (Rect.block (s := S102400x128) S6400x128.size (cc0_transform_2 i) (hinb0_2 i)).WholeWords (EltTy.packing .f32)

variable [Facts₀]

def dot_S6400x1280_S1280x128_S6400x128_1_0_0_1_n_n : DotDims S6400x1280 S1280x128 S6400x128 where
  lhsContracting := [1]
  rhsContracting := [0]
  lhsNonContracting := [0]
  rhsNonContracting := [1]
  lhsBatch := []
  rhsBatch := []
  wf := dot_S6400x1280_S1280x128_S6400x128_1_0_0_1_n_n_wf

abbrev win0_0 : Pipeline.Window sig grid0 :=
  Pipeline.Window.ofSpec (Memref.whole main_v0) S1280x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S6400x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1600000x128 : Shape := ⟨2, ![1600000, 128]⟩
abbrev S1600000 : Shape := ⟨1, ![1600000]⟩
abbrev S_ : Shape := ⟨0, ![]⟩
abbrev S100000x128 : Shape := ⟨2, ![100000, 128]⟩
abbrev S1600000x1 : Shape := ⟨2, ![1600000, 1]⟩

abbrev nBuf : Space → Nat
  | .hbm => 6
  | .vmem => 0
  | .smem => 0
  | _ => 0

abbrev bufTy : (tb : Table) → Fin (tcTables nBuf tb) → BufTy
  | .hbm, ⟨0, _⟩ => ⟨S1600000x128, .f32⟩
  | .hbm, ⟨1, _⟩ => ⟨S1600000, .i32⟩
  | .hbm, ⟨2, _⟩ => ⟨S_, .f32⟩
  | .hbm, ⟨3, _⟩ => ⟨S100000x128, .f32⟩
  | .hbm, ⟨4, _⟩ => ⟨S1600000x1, .i32⟩
  | .hbm, ⟨5, _⟩ => ⟨S100000x128, .f32⟩
  | _, _ => ⟨S1600000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  scatter_S100000x128_S1600000x1_S1600000x128_1_0_0_1_wf : ScatterDims.WF S100000x128 S1600000x1 S1600000x128 [1] [0] [0] 1

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Pieces.lean ====
/-
  What one visit of the kernel body leaves in the output's staging block, as a value.

  The body, at a grid point, loads the block of index words and the block of data rows, forms the
  one-hot weight matrix, multiplies, adds the product to the running block and stores the sum. At the
  first visit of a row block (the reduction coordinate is zero) it first stores the zero block and
  reads that back as the running block. So a visit leaves ONE function of the two input blocks and
  the running block — the body's arithmetic `k0_pay2` — and at a first visit the running block is the
  zero block `k0_pay1`.
-/
import proofs.«423766_j6846177869845_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.SegValue

open Cert.KernelIdeal Cert.KernelIdeal.Gen

variable {F : FTy → Type} [FloatOps F]

theorem hz : (![0, 0] : Fin 2 → Nat) = fun _ => 0 := funext fun a => by fin_cases a <;> rfl

/-- A later visit: the running block `xo` plus the product of the weights with the data block. -/
theorem out_later (c : Dev nD) (i : grid0.Coords) (a2 : Memref sig .tc .vmem S1280x128 .bf16) (h2 : a2.IsWhole)
    (a3 : Memref sig .tc .vmem S1x1280 .i32) (h3 : a3.IsWhole) (a4 : Memref sig .tc .vmem S6400x128 .f32) (h4 : a4.IsWhole)
    (hc : ¬cond0_0 i) (x0 : Vec F S1280x128 .bf16) (x1 : Vec F S1x1280 .i32) (xo : Vec F S6400x128 .f32) :
    out0_B_2 c i a2 h2 a3 h3 a4 h4 hc x0 x1 xo = k0_pay2 i x1 x0 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz]
  simp only [View.readAt_eq_ld, h2.read_unread, h3.read_unread, h4.read_unread,
    View.ld_unit_zero (S := S1x1280) hz, View.ld_unit_zero (S := S1280x128) hz, View.ld_unit_zero (S := S6400x128) hz]

/-- A first visit: the same over the zero block. -/
theorem out_first (c : Dev nD) (i : grid0.Coords) (a2 : Memref sig .tc .vmem S1280x128 .bf16) (h2 : a2.IsWhole)
    (a3 : Memref sig .tc .vmem S1x1280 .i32) (h3 : a3.IsWhole) (a4 : Memref sig .tc .vmem S6400x128 .f32) (h4 : a4.IsWhole)
    (hc : cond0_0 i) (x0 : Vec F S1280x128 .bf16) (x1 : Vec F S1x1280 .i32) :
    out0_A_2 c i a2 h2 a3 h3 a4 h4 hc x0 x1 = k0_pay2 i x1 x0 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S6400x128) hz, View.readCov_unit_zero (S := S6400x128) _ hz]
  simp only [View.readAt_eq_ld, h2.read_unread, h3.read_unread,
    View.ld_unit_zero (S := S1x1280) hz, View.ld_unit_zero (S := S1280x128) hz]

/-! ## The running block, point by point -/

variable (m : (ℓ : Loc nD τ sig) → Buf (Elt F) ℓ)

/-- The block of data rows and the block of index words the windows hand the body at point `t`, and the two
    arrays they are cut from, as the region finds them. -/
abbrev dblk (c : Dev nD) (t : Fin cfg0.N) : FVec F S1280x128 .bf16 := iblk m c 0 t
abbrev wblk (c : Dev nD) (t : Fin cfg0.N) : Vec F S1x1280 .i32 := iblk m c 1 t
abbrev darr (c : Dev nD) : FVec F S1600000x128 .bf16 := V m c main_v0
abbrev warr (c : Dev nD) : Vec F S1x1600000 .i32 := V m c main_v1

/-- At a point whose reduction coordinate is zero the running block is the visit over the zero block; -/
theorem outs_first (c : Dev nD) (t : Fin cfg0.N) (h0 : t.val % 1250 = 0) :
    outsAt0 m c t.val t.isLt = k0_pay2 (grid0.coords t) (wblk m c t) (dblk m c t) (k0_pay1 (F := F)) :=
  (outsAt0_A m c t h0).trans
    (out_first c (grid0.coords t) (ms0_0 t) (hs0_0 t) (ms0_1 t) (hs0_1 t) (ms0_2 t) (hs0_2 t) ((hcond0_0 t).mpr h0)
      (iblk m c 0 t) (iblk m c 1 t))

/-- at any other point it is the visit over what the point before left. -/
theorem outs_later (c : Dev nD) (t : Fin cfg0.N) (h0 : ¬t.val % 1250 = 0) :
    outsAt0 m c t.val t.isLt
      = k0_pay2 (grid0.coords t) (wblk m c t) (dblk m c t)
          (outsAt0 m c (t.val - 1) (Nat.lt_of_le_of_lt (Nat.sub_le _ _) t.isLt)) :=
  (outsAt0_B m c t h0).trans
    (out_later c (grid0.coords t) (ms0_0 t) (hs0_0 t) (ms0_1 t) (hs0_1 t) (ms0_2 t) (hs0_2 t) (fun h => h0 ((hcond0_0 t).mp h))
      (iblk m c 0 t) (iblk m c 1 t) (outsAt0 m c (t.val - 1) (Nat.lt_of_le_of_lt (Nat.sub_le _ _) t.isLt)))

end Cert.KernelIdeal.SegValue

end
-- ==== Proof.SegSum.lean ====
/-
  The mathematics of the segment sum, with no program in sight.

  Row `n` of the data carries a 32-bit word `X n`; segment `r` collects the rows whose word is the numeral `r`.
  The kernel reaches that sum as a matrix product with a one-hot weight (`hot r x` is `1` when `x` is the
  word of `r` and `0` otherwise), taken 1280 rows at a time and accumulated; so the quantity to follow is
  the PARTIAL sum over the first `K` rows (`part`), which grows by one block of 1280 rows per step
  (`part_add_block`), starts at nothing (`part_zero`) and ends at the sum over every row (`part_all`).
  Over the extended reals `0 * x = 0` and `1 * x = x` for EVERY `x`, the infinities included, so the weighted
  sum is the plain sum over the rows of the segment (`weighted_eq_filter`): no finiteness is used anywhere.
  `segOut` is the array of all the segment sums, the one function both programs are shown to compute.
-/
import Idealize.ShloMosaic.PureOps.Ideal
import Idealize.ShloMosaic.Lib.ValueIdx

noncomputable section

open scoped BigOperators

namespace Cert.SegSum

/-- The number of data rows. -/
abbrev NR : ℕ := 1600000

/-- The one-hot weight of a row whose word is `x`, for segment `r`. -/
def hot (r : ℕ) (x : BitVec 32) : EReal := if BitVec.ofNat 32 r = x then 1 else 0

/-- Row `n`'s contribution to segment `r` (nothing past the last row). -/
def rowTerm (X : Fin NR → BitVec 32) (H : Fin NR → EReal) (r n : ℕ) : EReal :=
  if h : n < NR then hot r (X ⟨n, h⟩) * H ⟨n, h⟩ else 0

/-- The partial segment sum over the first `K` rows. -/
def part (X : Fin NR → BitVec 32) (H : Fin NR → EReal) (r K : ℕ) : EReal :=
  ∑ n ∈ Finset.range K, rowTerm X H r n

theorem part_zero (X : Fin NR → BitVec 32) (H : Fin NR → EReal) (r : ℕ) : part X H r 0 = 0 := by
  unfold part
  exact Finset.sum_range_zero _

/-- One more block of `B` rows, all of them inside the data: the partial sum grows by the block's weighted sum. -/
theorem part_add_block (X : Fin NR → BitVec 32) (H : Fin NR → EReal) (r K B : ℕ) (hK : K + B ≤ NR) :
    part X H r (K + B)
      = part X H r K + ∑ q : Fin B, hot r (X ⟨K + q.val, by have := q.isLt; omega⟩) * H ⟨K + q.val, by have := q.isLt; omega⟩ := by
  unfold part
  rw [Finset.sum_range_add]
  congr 1
  rw [Finset.sum_range]
  apply Finset.sum_congr rfl
  intro q _
  unfold rowTerm
  rw [dif_pos (by have := q.isLt; omega)]

/-- Over all the rows the partial sum is the weighted sum over every row. -/
theorem part_all (X : Fin NR → BitVec 32) (H : Fin NR → EReal) (r : ℕ) :
    part X H r NR = ∑ n : Fin NR, hot r (X n) * H n := by
  unfold part
  rw [Finset.sum_range]
  apply Finset.sum_congr rfl
  intro n _
  unfold rowTerm
  rw [dif_pos n.isLt]

/-- The weighted sum is the plain sum over the rows of the segment. -/
theorem weighted_eq_filter (X : Fin NR → BitVec 32) (H : Fin NR → EReal) (r : ℕ) :
    ∑ n : Fin NR, hot r (X n) * H n = ∑ n ∈ Finset.univ.filter (fun n => BitVec.ofNat 32 r = X n), H n := by
  rw [Finset.sum_filter]
  apply Finset.sum_congr rfl
  intro n _
  unfold hot
  by_cases h : BitVec.ofNat 32 r = X n
  · rw [if_pos h, if_pos h, one_mul]
  · rw [if_neg h, if_neg h, zero_mul]

open Idealize.ShloMosaic Idealize.ShloMosaic.ValueIdx in
/-- THE RESULT both programs compute: entry `(r, d)` is the weighted sum, over all the rows `n`, of column `d` of
    the data, the weight of row `n` being `hot r (w n)`. -/
def segOut (data : (⟨2, ![1600000, 128]⟩ : Shape).Idx → EReal) (w : (⟨1, ![1600000]⟩ : Shape).Idx → BitVec 32) :
    (⟨2, ![100000, 128]⟩ : Shape).Idx → EReal :=
  fun i => ∑ n : Fin NR, hot (i 0).val (w (ix1 n)) * data (ix2 n ⟨(i 1).val, (i 1).isLt⟩)

end Cert.SegSum

end
-- ==== Proof.Payload.lean ====
/-
  The body's arithmetic at one entry of the output block, over the extended reals.

  For the grid point with segment-block coordinate `i 0`, entry `(p, d)` of what a visit stores is the
  running block's entry plus the sum over the 1280 rows `q` of the data block of `weight p q * data q d`,
  where the weight is `1` when the row's index word is the word of the segment number `6400 * i 0 + p`
  and `0` otherwise: the comparison of the two broadcast words, widened and converted, is exactly the
  one-hot weight `hot`; the matrix product into a zero accumulator is the plain sum over the contracted
  axis; the changes of float format and the identity shape casts do nothing.
-/
import proofs.«423766_j6846177869845_1_alg».proof.Proof.Gen.KernelIdeal.Skeleton
import proofs.«423766_j6846177869845_1_alg».proof.Proof.SegSum
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.SegValue

open Cert.KernelIdeal Cert.KernelIdeal.Gen Cert.SegSum

/-! ## The contraction's index maps, axis by axis -/

theorem lhs_axis0 (j : S6400x128.Idx) (k : dot_S6400x1280_S1280x128_S6400x128_1_0_0_1_n_n.contr.Idx) :
    (dot_S6400x1280_S1280x128_S6400x128_1_0_0_1_n_n.lhsIdx j k 0 : ℕ) = j 0 := by
  simp [DotDims.lhsIdx, dot_S6400x1280_S1280x128_S6400x128_1_0_0_1_n_n]; rfl
theorem lhs_axis1 (j : S6400x128.Idx) (k : dot_S6400x1280_S1280x128_S6400x128_1_0_0_1_n_n.contr.Idx) :
    (dot_S6400x1280_S1280x128_S6400x128_1_0_0_1_n_n.lhsIdx j k 1 : ℕ) = k ⟨0, by decide⟩ := by
  simp [DotDims.lhsIdx, dot_S6400x1280_S1280x128_S6400x128_1_0_0_1_n_n]; rfl
theorem rhs_axis0 (j : S6400x128.Idx) (k : dot_S6400x1280_S1280x128_S6400x128_1_0_0_1_n_n.contr.Idx) :
    (dot_S6400x1280_S1280x128_S6400x128_1_0_0_1_n_n.rhsIdx j k 0 : ℕ) = k ⟨0, by decide⟩ := by
  simp [DotDims.rhsIdx, dot_S6400x1280_S1280x128_S6400x128_1_0_0_1_n_n]; rfl
theorem rhs_axis1 (j : S6400x128.Idx) (k : dot_S6400x1280_S1280x128_S6400x128_1_0_0_1_n_n.contr.Idx) :
    (dot_S6400x1280_S1280x128_S6400x128_1_0_0_1_n_n.rhsIdx j k 1 : ℕ) = j 1 := by
  simp [DotDims.rhsIdx, dot_S6400x1280_S1280x128_S6400x128_1_0_0_1_n_n]; rfl

/-! ## The weight -/

/-- A one-bit comparison of two words, widened to 32 bits and converted, is `1` on equal words and `0` otherwise. -/
theorem weight_word (a b : BitVec 32) :
    FloatOps.sitofp (F := Ideal) .f32 ((IntOp.cmpi .eq a b).setWidth 32) = if a = b then 1 else 0 := by
  show (((((IntOp.cmpi .eq a b).setWidth 32).toInt : ℤ) : ℝ) : EReal) = _
  unfold IntOp.cmpi
  by_cases h : a = b
  · subst h
    simp
  · rw [if_neg h]
    have : (a == b) = false := by simpa using h
    simp [this]

/-- The segment word the body forms at row `p` of the block with segment-block coordinate `v`. -/
theorem segment_word (v p : ℕ) :
    IntOp.addi (Scalar.muli (BitVec.ofNat 32 v) 6400#32) (BitVec.ofNat 32 p) = BitVec.ofNat 32 (6400 * v + p) := by
  show BitVec.ofNat 32 v * 6400#32 + BitVec.ofNat 32 p = _
  rw [show (6400#32 : BitVec 32) = BitVec.ofNat 32 6400 from rfl, ← BitVec.ofNat_mul, ← BitVec.ofNat_add, Nat.mul_comm]

/-! ## The payload at an entry -/

theorem pay1_apply (j : S6400x128.Idx) : k0_pay1 (F := Ideal) j = 0 := by
  show Ideal.ofBits .f32 0x00000000#32 = 0
  exact Ideal.ofBits_zero_f32

theorem pay2_apply (i : grid0.Coords) (x1 : Vec Ideal S1x1280 .i32) (x0 : FVec Ideal S1280x128 .bf16)
    (xo : FVec Ideal S6400x128 .f32) (p : Fin 6400) (d : Fin 128) :
    k0_pay2 (F := Ideal) i x1 x0 xo (ix2 p d)
      = xo (ix2 p d) + ∑ q : Fin 1280, hot (6400 * (i 0).val + p.val) (x1 (ix2 (0 : Fin 1) q)) * x0 (ix2 q d) := by
  unfold k0_pay2
  dsimp only
  rw [shapeCast_self, shapeCast_self, shapeCast_self]
  refine (addf_apply _ _ _).trans ?_
  congr 1
  refine (Ideal.matmul_constant_zero_apply _ none _ _ _).trans ?_
  rw [← Equiv.sum_comp (contrEquiv1 dot_S6400x1280_S1280x128_S6400x128_1_0_0_1_n_n 1280 rfl rfl).symm]
  apply Finset.sum_congr rfl
  intro q _
  have hl : dot_S6400x1280_S1280x128_S6400x128_1_0_0_1_n_n.lhsIdx (ix2 p d) ((contrEquiv1 dot_S6400x1280_S1280x128_S6400x128_1_0_0_1_n_n 1280 rfl rfl).symm q) = ix2 p q := by
    funext a
    apply Fin.ext
    match a with
    | ⟨0, _⟩ => exact lhs_axis0 _ _
    | ⟨1, _⟩ => exact (lhs_axis1 _ _).trans (contrEquiv1_symm_val _ _ _ _ q)
  have hr : dot_S6400x1280_S1280x128_S6400x128_1_0_0_1_n_n.rhsIdx (ix2 p d) ((contrEquiv1 dot_S6400x1280_S1280x128_S6400x128_1_0_0_1_n_n 1280 rfl rfl).symm q) = ix2 q d := by
    funext a
    apply Fin.ext
    match a with
    | ⟨0, _⟩ => exact (rhs_axis0 _ _).trans (contrEquiv1_symm_val _ _ _ _ q)
    | ⟨1, _⟩ => exact rhs_axis1 _ _
  rw [hl, hr]
  congr 1
  show FloatOps.sitofp (F := Ideal) .f32 ((IntOp.cmpi .eq
      (broadcastTo S6400x1280 (addi (broadcast S6400x1 (Scalar.muli (BitVec.ofNat 32 (i 0).val) 6400#32))
        (iota .tc S6400x1 32 [0] iota_S6400x1_d0_w32)) broadcasts_S6400x1_S6400x1280 (ix2 p q))
      (broadcastTo S6400x1280 x1 broadcasts_S1x1280_S6400x1280 (ix2 p q))).setWidth 32) = _
  rw [weight_word,
    broadcastTo_apply _ broadcasts_S6400x1_S6400x1280 (ix2 p q) (ix2 p (0 : Fin 1))
      (by intro a; match a with | ⟨0, _⟩ => rfl | ⟨1, _⟩ => rfl),
    broadcastTo_apply x1 broadcasts_S1x1280_S6400x1280 (ix2 p q) (ix2 (0 : Fin 1) q)
      (by intro a; match a with | ⟨0, _⟩ => rfl | ⟨1, _⟩ => rfl)]
  show (if IntOp.addi (Scalar.muli (BitVec.ofNat 32 (i 0).val) 6400#32)
      (iota .tc S6400x1 32 [0] iota_S6400x1_d0_w32 (ix2 p (0 : Fin 1))) = x1 (ix2 (0 : Fin 1) q) then (1 : EReal) else 0) = _
  rw [iota_single_apply, segment_word]
  rfl

end Cert.KernelIdeal.SegValue

end
-- ==== Proof.GridFacts.lean ====
/-
  Where the grid's points sit and which blocks the three windows name there.

  The grid has 16 x 1250 points, run in row-major order: point `t` has segment-block coordinate `t / 1250`
  and reduction coordinate `t % 1250`. The data window's block index is (reduction coordinate, 0), the
  index-word window's is (0, reduction coordinate), the output window's is (segment-block coordinate, 0).
  Decided once over the 20000 points.
-/
import proofs.«423766_j6846177869845_1_alg».proof.Proof.Gen.KernelIdeal
import Idealize.ShloMosaic.Lib.Decide

noncomputable section

open Idealize.ShloMosaic

namespace Cert.KernelIdeal.SegValue

open Cert.KernelIdeal Cert.KernelIdeal.Gen

theorem grid_facts : ∀ t : Fin cfg0.N,
    (grid0.coords t (0 : Fin 2)).val = t.val / 1250
    ∧ win0_0.index t (0 : Fin 2) = t.val % 1250 ∧ win0_0.index t (1 : Fin 2) = 0
    ∧ win0_1.index t (0 : Fin 2) = 0 ∧ win0_1.index t (1 : Fin 2) = t.val % 1250
    ∧ win0_2.index t (0 : Fin 2) = t.val / 1250 ∧ win0_2.index t (1 : Fin 2) = 0 :=
  (by decide +kernel : ∀ t : Fin grid0.N,
    (grid0.coords t (0 : Fin 2)).val = t.val / 1250
    ∧ win0_0.index t (0 : Fin 2) = t.val % 1250 ∧ win0_0.index t (1 : Fin 2) = 0
    ∧ win0_1.index t (0 : Fin 2) = 0 ∧ win0_1.index t (1 : Fin 2) = t.val % 1250
    ∧ win0_2.index t (0 : Fin 2) = t.val / 1250 ∧ win0_2.index t (1 : Fin 2) = 0)

end Cert.KernelIdeal.SegValue

end
-- ==== Proof.Accumulate.lean ====
/-
  The running block is a partial segment sum.

  At point `t`, with segment-block coordinate `t / 1250` and reduction coordinate `t % 1250`, the data
  window hands the body rows `1280 * (t % 1250) ..< 1280 * (t % 1250) + 1280` of the data array and the
  index-word window the words of the same rows (`dblk_apply`, `wblk_apply`). One visit therefore adds to
  entry `(p, d)` of the running block exactly the next block of 1280 row terms of segment
  `6400 * (t / 1250) + p` (`visit`), and since the block is reset where the reduction coordinate is zero,
  after point `t` it holds the partial segment sum over the first `1280 * (t % 1250) + 1280` rows
  (`outsAt_eq`, by induction on the point).
-/
import proofs.«423766_j6846177869845_1_alg».proof.Proof.Pieces
import proofs.«423766_j6846177869845_1_alg».proof.Proof.Payload
import proofs.«423766_j6846177869845_1_alg».proof.Proof.GridFacts

noncomputable section

open scoped BigOperators
open Idealize.ShloMosaic Idealize.ShloMosaic.TcCoe Idealize.SL.Sem Idealize.ShloMosaic.ValueIdx

namespace Cert.KernelIdeal.SegValue

open Cert.KernelIdeal Cert.KernelIdeal.Gen Cert.SegSum

variable (m : (ℓ : Loc nD τ sig) → Buf (Elt Ideal) ℓ)

/-- The index words, row by row, and one column of the data, row by row, as the region finds them. -/
abbrev words (c : Dev nD) : Fin NR → BitVec 32 := fun n => warr m c (ix2 (0 : Fin 1) n)
abbrev col (c : Dev nD) (d : Fin 128) : Fin NR → EReal := fun n => darr m c (ix2 n d)

/-- Row `q` of the data block at point `t` is row `1280 * (t % 1250) + q` of the data array. -/
theorem dblk_apply (c : Dev nD) (t : Fin cfg0.N) (q : Fin 1280) (d : Fin 128) (n : Fin NR)
    (hn : n.val = 1280 * (t.val % 1250) + q.val) :
    dblk m c t (ix2 q d) = darr m c (ix2 n d) := by
  obtain ⟨-, h00, h01, -, -, -, -⟩ := grid_facts t
  unfold dblk darr iblk
  rw [View.read_apply]
  show V m c main_v0 _ = V m c main_v0 _
  congr 1
  funext a
  apply Fin.ext
  match a with
  | ⟨0, _⟩ => show win0_0.index t (0 : Fin 2) * 1280 + 1 * q.val = n.val; rw [h00, hn]; omega
  | ⟨1, _⟩ => show win0_0.index t (1 : Fin 2) * 128 + 1 * d.val = d.val; rw [h01]; omega

/-- Word `q` of the index-word block at point `t` is word `1280 * (t % 1250) + q` of the index words. -/
theorem wblk_apply (c : Dev nD) (t : Fin cfg0.N) (q : Fin 1280) (n : Fin NR)
    (hn : n.val = 1280 * (t.val % 1250) + q.val) :
    wblk m c t (ix2 (0 : Fin 1) q) = warr m c (ix2 (0 : Fin 1) n) := by
  obtain ⟨-, -, -, h10, h11, -, -⟩ := grid_facts t
  unfold wblk warr iblk
  rw [View.read_apply]
  show V m c main_v1 _ = V m c main_v1 _
  congr 1
  funext a
  apply Fin.ext
  match a with
  | ⟨0, _⟩ => show win0_1.index t (0 : Fin 2) * 1 + 1 * 0 = 0; rw [h10]
  | ⟨1, _⟩ => show win0_1.index t (1 : Fin 2) * 1280 + 1 * q.val = n.val; rw [h11, hn]; omega

/-- One visit at point `t`: over a running block that holds the partial sum up to this point's rows, it leaves the
    partial sum through this point's rows. -/
theorem visit (c : Dev nD) (t : Fin cfg0.N) (xo : FVec Ideal S6400x128 .f32) (p : Fin 6400) (d : Fin 128)
    (hxo : xo (ix2 p d) = part (words m c) (col m c d) (6400 * (t.val / 1250) + p.val) (1280 * (t.val % 1250))) :
    k0_pay2 (F := Ideal) (grid0.coords t) (wblk m c t) (dblk m c t) xo (ix2 p d)
      = part (words m c) (col m c d) (6400 * (t.val / 1250) + p.val) (1280 * (t.val % 1250) + 1280) := by
  obtain ⟨hc0, -⟩ := grid_facts t
  rw [pay2_apply, hxo, hc0, part_add_block _ _ _ _ 1280 (by show 1280 * (t.val % 1250) + 1280 ≤ 1600000; omega)]
  refine congrArg (part (words m c) (col m c d) (6400 * (t.val / 1250) + p.val) (1280 * (t.val % 1250)) + ·) ?_
  apply Finset.sum_congr rfl
  intro q _
  rw [wblk_apply m c t q ⟨1280 * (t.val % 1250) + q.val, by have := q.isLt; show _ < 1600000; omega⟩ rfl,
    dblk_apply m c t q d ⟨1280 * (t.val % 1250) + q.val, by have := q.isLt; show _ < 1600000; omega⟩ rfl]

/-- After point `n` the running block holds, at entry `(p, d)`, the partial sum of segment `6400 * (n / 1250) + p`
    over the first `1280 * (n % 1250) + 1280` rows. -/
theorem outsAt_eq (c : Dev nD) : ∀ (n : ℕ) (h : n < cfg0.N) (p : Fin 6400) (d : Fin 128),
    outsAt0 m c n h (ix2 p d)
      = part (words m c) (col m c d) (6400 * (n / 1250) + p.val) (1280 * (n % 1250) + 1280)
  | 0, h, p, d => by
    refine (congrFun (outs_first m c ⟨0, h⟩ rfl) (ix2 p d)).trans ?_
    refine visit m c ⟨0, h⟩ (k0_pay1 (F := Ideal)) p d ?_
    rw [pay1_apply]
    exact (part_zero _ _ _).symm
  | n + 1, h, p, d => by
    by_cases h0 : (n + 1) % 1250 = 0
    · refine (congrFun (outs_first m c ⟨n + 1, h⟩ h0) (ix2 p d)).trans ?_
      refine visit m c ⟨n + 1, h⟩ (k0_pay1 (F := Ideal)) p d ?_
      rw [pay1_apply]
      show (0 : EReal) = part (words m c) (col m c d) (6400 * ((n + 1) / 1250) + p.val) (1280 * ((n + 1) % 1250))
      rw [h0]
      exact (part_zero _ _ _).symm
    · refine (congrFun (outs_later m c ⟨n + 1, h⟩ h0) (ix2 p d)).trans ?_
      refine visit m c ⟨n + 1, h⟩ (outsAt0 m c n (Nat.lt_of_succ_lt h)) p d ?_
      rw [outsAt_eq c n (Nat.lt_of_succ_lt h) p d]
      have e1 : (n + 1) / 1250 = n / 1250 := by omega
      have e2 : 1280 * ((n + 1) % 1250) = 1280 * (n % 1250) + 1280 := by omega
      show part (words m c) (col m c d) (6400 * (n / 1250) + p.val) (1280 * (n % 1250) + 1280)
        = part (words m c) (col m c d) (6400 * ((n + 1) / 1250) + p.val) (1280 * ((n + 1) % 1250))
      rw [e1, e2]

end Cert.KernelIdeal.SegValue

end
-- ==== Proof.Result.lean ====
/-
  What the kernel's program leaves in its result, as one function of its two arguments.

  The output window writes a block back only after the last reduction step of a segment block (points
  `1249 mod 1250`), when the running block holds the segment sums over ALL the rows (`flushed_eq`). The
  sixteen blocks of 6400 rows tile the 102400-row array (`final`), so entry `(r, d)` of that array is the sum
  over the rows `n` of `hot r (word n) * data (n, d)`. The program then keeps the first 100000 rows. Before
  the region it only changes the data's float format (nothing, over the extended reals) and views the
  index words as one row of 1600000 (`darr_apply`, `warr_apply`). Hence `run`: the result is `segOut` of the
  two arguments.
-/
import proofs.«423766_j6846177869845_1_alg».proof.Proof.Accumulate
import Idealize.ShloMosaic.Lib.StableHlo.Run
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.SegValue

open Cert.KernelIdeal Cert.KernelIdeal.Gen Cert.SegSum

variable (m : (ℓ : Loc nD τ sig) → Buf (Elt Ideal) ℓ) (ρ : Dev nD → PrngReg)

/-! ## The 102400-row array after the region -/

/-- Entry `(r, d)` of the array the region fills: the sum over the rows of segment `r`, column `d`. -/
def wide (c : Dev nD) : FVec Ideal S102400x128 .f32 := fun i =>
  ∑ n : Fin NR, hot (i 0).val (words m c n) * col m c ⟨(i 1).val, (i 1).isLt⟩ n

theorem wide_apply (c : Dev nD) (i : S102400x128.Idx) (r : ℕ) (d : Fin 128) (h0 : (i 0).val = r) (h1 : (i 1).val = d.val) :
    wide m c i = ∑ n : Fin NR, hot r (words m c n) * col m c d n := by
  unfold wide
  have hd : (⟨(i 1).val, (i 1).isLt⟩ : Fin 128) = d := Fin.ext h1
  rw [h0, hd]

attribute [local irreducible] wide

/-- The invariant at any index of the block. -/
theorem outsAt_idx (c : Dev nD) (n : ℕ) (h : n < cfg0.N) (j : S6400x128.Idx) :
    outsAt0 m c n h j
      = part (words m c) (col m c ⟨(j 1).val, (j 1).isLt⟩) (6400 * (n / 1250) + (j 0).val) (1280 * (n % 1250) + 1280) :=
  (congrArg (outsAt0 m c n h) (eq_ix2 j)).trans (outsAt_eq m c n h ⟨(j 0).val, (j 0).isLt⟩ ⟨(j 1).val, (j 1).isLt⟩)

/-- What a write-back writes is a block of `wide`. -/
theorem flushed_eq (c : Dev nD) (t : Fin cfg0.N) (hf : (cfg0.win 2).flush t = true) :
    (dats m 0 c).flushed 2 t = ((cfg0.win 2).blk t).view.read (Elt Ideal) (wide m c) := by
  have h49 : t.val % 1250 = 1249 := (flush0_2 t).mp hf
  obtain ⟨-, -, -, -, -, h20, h21⟩ := grid_facts t
  show (cfg0.win 2).cut (grid0.coords t) ((dats m 0 c).after 2 t) = _
  rw [after0_2]
  funext j
  rw [View.read_apply]
  rw [cast_eq]
  show outsAt0 m c t.val t.isLt ((cfg0.win 2).xinj (grid0.coords t) j) = _
  have e0 : ((((cfg0.win 2).blk t).view.emb j) 0).val = 6400 * (t.val / 1250) + (j 0).val := by
    show win0_2.index t (0 : Fin 2) * 6400 + 1 * (j 0).val = _
    rw [h20]; omega
  have e1 : ((((cfg0.win 2).blk t).view.emb j) 1).val = (j 1).val := by
    show win0_2.index t (1 : Fin 2) * 128 + 1 * (j 1).val = _
    rw [h21]; omega
  refine (outsAt_idx m c t.val t.isLt ((cfg0.win 2).xinj (grid0.coords t) j)).trans ?_
  show part (words m c) (col m c ⟨(j 1).val, (j 1).isLt⟩) (6400 * (t.val / 1250) + (j 0).val) (1280 * (t.val % 1250) + 1280) = _
  rw [wide_apply m c (((cfg0.win 2).blk t).view.emb j) (6400 * (t.val / 1250) + (j 0).val) ⟨(j 1).val, (j 1).isLt⟩ e0 e1]
  have hK : 1280 * (t.val % 1250) + 1280 = NR := by rw [h49]
  rw [hK, part_all]

/-- An index is in point `t`'s output block iff each coordinate is in the block's range. -/
theorem mem_blk (t : Fin cfg0.N) (i : S102400x128.Idx) :
    i ∈ ((cfg0.win 2).blk t).view.set
      ↔ ∀ a : Fin 2, win0_2.index t a * S6400x128.size a ≤ (i a).val ∧ (i a).val < win0_2.index t a * S6400x128.size a + S6400x128.size a := by
  show i ∈ ((View.whole main_v2).slice (win0_2.rect t)).set ↔ _
  rw [View.set_slice_whole, Rect.mem_set_unit]
  exact Iff.rfl

/-- The array after the region. -/
theorem final (c : Dev nD) : (dats m 0 c).arrAt 2 cfg0.N = wide m c :=
  (dats m 0 c).arrAt_eq_of_cover 2 (wide m c) (fun t hf => flushed_eq m c t hf) fun i => by
    have hi0 : (i 0).val < 102400 := (i 0).isLt
    have hi1 : (i 1).val < 128 := (i 1).isLt
    have hN : cfg0.N = 20000 := N_0
    obtain ⟨t, ht⟩ : ∃ t : Fin cfg0.N, t.val = (i 0).val / 6400 * 1250 + 1249 := ⟨⟨_, by rw [hN]; omega⟩, rfl⟩
    obtain ⟨-, -, -, -, -, h20, h21⟩ := grid_facts t
    refine ⟨t, (flush0_2 t).mpr (by omega), ?_⟩
    rw [mem_blk]
    intro a
    match a with
    | ⟨0, _⟩ =>
      show win0_2.index t (0 : Fin 2) * 6400 ≤ (i 0).val ∧ (i 0).val < win0_2.index t (0 : Fin 2) * 6400 + 6400
      rw [h20]; omega
    | ⟨1, _⟩ =>
      show win0_2.index t (1 : Fin 2) * 128 ≤ (i 1).val ∧ (i 1).val < win0_2.index t (1 : Fin 2) * 128 + 128
      rw [h21]; omega

/-! ## The two arrays the region reads, from the arguments -/

/-- The data array the region reads is the argument in another float format: the same extended reals. -/
theorem darr_apply (c : Dev nD) (n : Fin NR) (d : Fin 128) :
    darr m c (ix2 n d) = m ((c : Thread nD τ).loc main_arg0) (ix2 n d) := by
  have e : darr m c = truncf .bf16 (m ((c : Thread nD τ).loc main_arg0)) bitsLt_bf16_f32 := by
    show StableHlo.after hostOps0 (fun b => m (c, b)) (Proc.devRef .tc main_v0) = _
    after_results
  rw [e]
  rfl

/-- The index words the region reads are the argument's, viewed as one row. -/
theorem warr_apply (c : Dev nD) (n : Fin NR) :
    warr m c (ix2 (0 : Fin 1) n) = m ((c : Thread nD τ).loc main_arg1) (ix1 n) := by
  have e : warr m c = shapeCast S1x1600000 (m ((c : Thread nD τ).loc main_arg1)) shapeCasts_S1600000_S1x1600000 := by
    show StableHlo.after hostOps0 (fun b => m (c, b)) (Proc.devRef .tc main_v1) = _
    after_results
    rfl
  rw [e]
  exact shapeCast_apply _ _ (ix2 (0 : Fin 1) n) (ix1 n) (by
    rw [Shape.rowMajor_val_one, Shape.rowMajor_val_two]
    show n.val = 0 * 1600000 + n.val
    omega)

/-! ## The program's run, read -/

/-- The result the program leaves: the first 100000 rows of `wide`, that is `segOut` of the arguments. -/
theorem tail_eq (c : Dev nD) :
    Pipeline.afterTail₀ cfgs (dats m) 0 (V0 m) [hostOps1] c main_v3
      = segOut (m ((c : Thread nD τ).loc main_arg0)) (m ((c : Thread nD τ).loc main_arg1)) := by
  unfold Pipeline.afterTail₀
  show StableHlo.after hostOps1 _ (Proc.devRef .tc main_v3) = _
  after_results
  have hw : (Pipeline.withArrays (cfgs 0).spec c (V0 m c) (fun w => (dats m 0 c).arrAt w (cfgs 0).N)
      (Proc.devRef .tc main_v2) : S102400x128.Idx → Elt Ideal .f32) = wide m c :=
    (Pipeline.withArrays_arr spec0 launch0.win.arr_inj c (V0 m c) (fun w => (dats m 0 c).arrAt w (cfgs 0).N) 2).trans (final m c)
  refine (congrArg (fun x : S102400x128.Idx → Elt Ideal .f32 =>
    extractStridedSlice S100000x128 ![0, 0] x slices_S102400x128_S100000x128_0_0) hw).trans ?_
  funext i
  have hi0 : (i 0).val < 100000 := (i 0).isLt
  have hi1 : (i 1).val < 128 := (i 1).isLt
  refine (extractStridedSlice_apply (s := S102400x128) (t := S100000x128) ![0, 0] (wide m c)
    slices_S102400x128_S100000x128_0_0 i (ix2 (⟨(i 0).val, by omega⟩ : Fin 102400) (⟨(i 1).val, hi1⟩ : Fin 128))
    (fun a => match a with
      | ⟨0, _⟩ => by show (i 0).val = 0 + (i 0).val; omega
      | ⟨1, _⟩ => by show (i 1).val = 0 + (i 1).val; omega)).trans ?_
  rw [wide_apply m c _ (i 0).val ⟨(i 1).val, hi1⟩ rfl rfl]
  unfold segOut
  apply Finset.sum_congr rfl
  intro n _
  show hot (i 0).val (warr m c (ix2 (0 : Fin 1) n)) * darr m c (ix2 n ⟨(i 1).val, hi1⟩) = _
  rw [warr_apply, darr_apply]

/-- Every weakly fair execution of the program ends with its result at `segOut` of the arguments and the arguments
    unchanged. -/
theorem run : θ_run defs (onTc (τ := τ) (main (F := Ideal))) ⟨m, fun _ => 0, ρ⟩ fun r => ∀ c : Dev nD,
      r.2.mem ((c.tc : Thread nD τ).loc main_v3)
        = segOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.SegValue

end
-- ==== Proof.RefValue.lean ====
/-
  The reference's result at one entry, over the extended reals.

  The reference scatters the data rows into a zero array: row `n` is added at the segment its index word
  names, read as a signed number, and is dropped when that number is outside `[0, 100000)`. With the
  scatter's dimension numbers (one index per row, the row's 128 entries a window along the second axis)
  update entry `(n, b)` lands at `(word n, b)` (`lands_iff`); a signed word is the number `r < 100000`
  exactly when it is the word of `r` (`toInt_eq_iff`); so entry `(r, d)` of the result is the sum over the
  rows of `hot r (word n) * data (n, d)` (`scatter_apply`, `ref_apply`).
-/
import proofs.«423766_j6846177869845_1_alg».proof.Proof.Gen.ReferenceIdeal.Read
import proofs.«423766_j6846177869845_1_alg».proof.Proof.SegSum
import Idealize.ShloMosaic.Lib.ValueIdx
import Idealize.ShloMosaic.PureOps.Ideal.Laws

noncomputable section

open scoped BigOperators
open Idealize.ShloMosaic Idealize.ShloMosaic.ValueIdx

namespace Cert.ReferenceIdeal.SegRef

open Cert.ReferenceIdeal Cert.ReferenceIdeal.Gen Cert.SegSum

/-! ## The scatter's dimension numbers, axis by axis -/

theorem start0 (j : S1600000x128.Idx) (idx : IVec S1600000x1 32) :
    scatter_S100000x128_S1600000x1_S1600000x128_1_0_0_1.start j idx 0 = (idx (ix2 (j 0) (0 : Fin 1))).toInt := by
  unfold ScatterDims.start
  simp [scatter_S100000x128_S1600000x1_S1600000x128_1_0_0_1]
  congr 2
  funext a
  apply Fin.ext
  match a with
  | ⟨0, _⟩ =>
    simp [ScatterDims.siIdx, ScatterDims.siCoord]
    rfl
  | ⟨1, _⟩ =>
    simp [ScatterDims.siIdx]

theorem start1 (j : S1600000x128.Idx) (idx : IVec S1600000x1 32) :
    scatter_S100000x128_S1600000x1_S1600000x128_1_0_0_1.start j idx 1 = 0 := by
  unfold ScatterDims.start
  simp [scatter_S100000x128_S1600000x1_S1600000x128_1_0_0_1]

theorem window0 (j : S1600000x128.Idx) :
    scatter_S100000x128_S1600000x1_S1600000x128_1_0_0_1.window j 0 = 0 := by
  unfold ScatterDims.window
  simp [scatter_S100000x128_S1600000x1_S1600000x128_1_0_0_1, Shape.kept]

theorem window1 (j : S1600000x128.Idx) :
    scatter_S100000x128_S1600000x1_S1600000x128_1_0_0_1.window j 1 = (j 1).val := by
  unfold ScatterDims.window
  simp [scatter_S100000x128_S1600000x1_S1600000x128_1_0_0_1, Shape.kept]
  rfl

/-- Where an update row lands. -/
theorem lands_iff (j : S1600000x128.Idx) (idx : IVec S1600000x1 32) (i : S100000x128.Idx) :
    scatter_S100000x128_S1600000x1_S1600000x128_1_0_0_1.resultIdx? j idx = some i
      ↔ (idx (ix2 (j 0) (0 : Fin 1))).toInt = ((i 0).val : ℤ) ∧ (j 1).val = (i 1).val := by
  have hi0 : (i 0).val < 100000 := (i 0).isLt
  have hi1 : (i 1).val < 128 := (i 1).isLt
  have hj1 : (j 1).val < 128 := (j 1).isLt
  unfold ScatterDims.resultIdx?
  split
  · rename_i h
    have h0 := h 0
    have h1 := h 1
    rw [start0, window0] at h0
    rw [start1, window1] at h1
    rw [Option.some.injEq]
    constructor
    · intro e
      have e0 := congrArg (fun f => (f 0).val) e
      have e1 := congrArg (fun f => (f 1).val) e
      simp only [start0, window0, start1, window1] at e0 e1
      constructor
      · omega
      · omega
    · rintro ⟨e0, e1⟩
      funext a
      apply Fin.ext
      match a with
      | ⟨0, _⟩ =>
        show (scatter_S100000x128_S1600000x1_S1600000x128_1_0_0_1.start j idx 0 + (scatter_S100000x128_S1600000x1_S1600000x128_1_0_0_1.window j 0 : ℤ)).toNat = (i 0).val
        rw [start0, window0]; omega
      | ⟨1, _⟩ =>
        show (scatter_S100000x128_S1600000x1_S1600000x128_1_0_0_1.start j idx 1 + (scatter_S100000x128_S1600000x1_S1600000x128_1_0_0_1.window j 1 : ℤ)).toNat = (i 1).val
        rw [start1, window1]; omega
  · rename_i h
    constructor
    · intro e; cases e
    · rintro ⟨e0, e1⟩
      exfalso
      apply h
      intro a
      match a with
      | ⟨0, _⟩ =>
        show 0 ≤ scatter_S100000x128_S1600000x1_S1600000x128_1_0_0_1.start j idx 0 + (scatter_S100000x128_S1600000x1_S1600000x128_1_0_0_1.window j 0 : ℤ) ∧ scatter_S100000x128_S1600000x1_S1600000x128_1_0_0_1.start j idx 0 + (scatter_S100000x128_S1600000x1_S1600000x128_1_0_0_1.window j 0 : ℤ) < (100000 : ℕ)
        rw [start0, window0]; omega
      | ⟨1, _⟩ =>
        show 0 ≤ scatter_S100000x128_S1600000x1_S1600000x128_1_0_0_1.start j idx 1 + (scatter_S100000x128_S1600000x1_S1600000x128_1_0_0_1.window j 1 : ℤ) ∧ scatter_S100000x128_S1600000x1_S1600000x128_1_0_0_1.start j idx 1 + (scatter_S100000x128_S1600000x1_S1600000x128_1_0_0_1.window j 1 : ℤ) < (128 : ℕ)
        rw [start1, window1]; omega

/-- A 32-bit word read signed is the number `r`, below `100000`, exactly when it is the word of `r`. -/
theorem toInt_eq_iff (x : BitVec 32) (r : ℕ) (hr : r < 100000) : x.toInt = (r : ℤ) ↔ BitVec.ofNat 32 r = x := by
  have hx := x.isLt
  constructor
  · intro h
    apply BitVec.eq_of_toNat_eq
    rw [BitVec.toNat_ofNat]
    unfold BitVec.toInt at h
    split at h <;> omega
  · intro h
    subst h
    unfold BitVec.toInt
    rw [BitVec.toNat_ofNat]
    split <;> omega

/-! ## The scatter-add at an entry -/

theorem scatter_apply (x : FVec Ideal S100000x128 .f32) (idx : IVec S1600000x1 32) (upd : FVec Ideal S1600000x128 .f32)
    (r : Fin 100000) (d : Fin 128) :
    Host.scatterAdd (F := Ideal) scatter_S100000x128_S1600000x1_S1600000x128_1_0_0_1 x idx upd (ix2 r d)
      = x (ix2 r d) + ∑ n : Fin NR, hot r.val (idx (ix2 n (0 : Fin 1))) * upd (ix2 n d) := by
  show Ideal.hostScatterAdd scatter_S100000x128_S1600000x1_S1600000x128_1_0_0_1 x idx upd (ix2 r d) = _
  unfold Ideal.hostScatterAdd
  refine congrArg (x (ix2 r d) + ·) ?_
  rw [Finset.sum_filter, sum_idx2]
  apply Finset.sum_congr rfl
  intro n _
  rw [Finset.sum_eq_single d]
  · unfold hot
    by_cases h : BitVec.ofNat 32 r.val = idx (ix2 n (0 : Fin 1))
    · rw [if_pos h, one_mul, if_pos ((lands_iff (ix2 n d) idx (ix2 r d)).mpr ⟨(toInt_eq_iff _ r.val r.isLt).mpr h, rfl⟩)]
    · rw [if_neg h, zero_mul,
        if_neg (fun hp => h ((toInt_eq_iff _ r.val r.isLt).mp ((lands_iff (ix2 n d) idx (ix2 r d)).mp hp).1))]
  · intro b _ hb
    rw [if_neg]
    intro hp
    exact hb (Fin.ext ((lands_iff (ix2 n b) idx (ix2 r d)).mp hp).2)
  · intro h
    exact absurd (Finset.mem_univ d) h

/-- The reference's result at entry `(r, d)`: the weighted sum over the rows. -/
theorem ref_apply (x0 : FVec Ideal S1600000x128 .f32) (x1 : IVec S1600000 32) (r : Fin 100000) (d : Fin 128) :
    Cert.ReferenceIdeal.Read.val_main_v2 (F := Ideal) x0 x1 (ix2 r d)
      = ∑ n : Fin NR, hot r.val (x1 (ix1 n)) * x0 (ix2 n d) := by
  unfold Cert.ReferenceIdeal.Read.val_main_v2
  refine (scatter_apply _ _ _ r d).trans ?_
  rw [Cert.ReferenceIdeal.Read.val_main_v0_apply, Cert.ReferenceIdeal.Read.val_main_cst_apply]
  show Ideal.ofBits .f32 0x00000000#32 + _ = _
  rw [Ideal.ofBits_zero_f32, zero_add]
  apply Finset.sum_congr rfl
  intro n _
  rw [Cert.ReferenceIdeal.Read.val_main_v1_apply]
  refine congrArg (fun w => hot r.val w * x0 (ix2 n d)) ?_
  exact congrArg x1 (funext fun a => match a with | ⟨0, _⟩ => rfl)

/-- So the reference's result is `segOut` of its two arguments. -/
theorem ref_eq (x0 : FVec Ideal S1600000x128 .f32) (x1 : IVec S1600000 32) :
    Cert.ReferenceIdeal.Read.val_main_v2 (F := Ideal) x0 x1 = segOut x0 x1 := by
  funext i
  rw [eq_ix2 i]
  exact ref_apply x0 x1 (i 0) (i 1)

end Cert.ReferenceIdeal.SegRef

end
-- ==== Proof.lean ====
/-
  The kernel computes a segment sum as a one-hot matrix product, tiled and accumulated over a grid;
  the reference computes it as one scatter-add. Over the extended reals both leave, at entry `(r, d)` of
  the result, the sum over the rows `n` of `hot r (word n) * data (n, d)` — `Cert.SegSum.segOut` — where
  `hot r x` is `1` when the 32-bit word `x` is the word of `r` and `0` otherwise:

  * the kernel, because one visit of the body adds the next 1280 row terms to the running block, which is
    reset at the start of each segment block and written back once all 1250 row blocks are in
    (Proof/Pieces, Payload, Accumulate, Result);
  * the reference, because a scattered row lands at the segment its signed word names and is dropped
    outside `[0, 100000)`, which for a segment `r < 100000` is the same test on the word (Proof/RefValue).

  A row whose word names no segment below 100000 contributes to neither result: the reference drops it, and
  the kernel adds it, if anywhere, to a row of the padded array that the final slice cuts away. No
  arithmetic law beyond `0 * x = 0`, `1 * x = x`, `0 + x = x` and the regrouping of a finite sum is used, so
  the finiteness of the inputs is never opened. The frames of the two kernel programs are the generated
  ones; the reference's is its generated run with the result dropped; the ideal pass rewrote nothing.
-/
import proofs.«423766_j6846177869845_1_alg».proof.Defs
import proofs.«423766_j6846177869845_1_alg».proof.Proof.Gen.Kernel
import proofs.«423766_j6846177869845_1_alg».proof.Proof.Gen.Kernel.Skeleton
import proofs.«423766_j6846177869845_1_alg».proof.Proof.Gen.Kernel.Launch
import proofs.«423766_j6846177869845_1_alg».proof.Proof.Gen.Kernel.Points
import proofs.«423766_j6846177869845_1_alg».proof.Proof.Gen.Kernel.Frame
import proofs.«423766_j6846177869845_1_alg».proof.Proof.Gen.KernelIdeal
import proofs.«423766_j6846177869845_1_alg».proof.Proof.Gen.KernelIdeal.Skeleton
import proofs.«423766_j6846177869845_1_alg».proof.Proof.Gen.KernelIdeal.Launch
import proofs.«423766_j6846177869845_1_alg».proof.Proof.Gen.KernelIdeal.Points
import proofs.«423766_j6846177869845_1_alg».proof.Proof.Gen.KernelIdeal.Frame
import proofs.«423766_j6846177869845_1_alg».proof.Proof.Gen.ReferenceIdeal
import proofs.«423766_j6846177869845_1_alg».proof.Proof.Gen.Pre_finite_inputs
import proofs.«423766_j6846177869845_1_alg».proof.Proof.Gen.ReferenceIdeal.Run
import proofs.«423766_j6846177869845_1_alg».proof.Proof.Gen.ReferenceIdeal.Read
import proofs.«423766_j6846177869845_1_alg».proof.Proof.Result
import proofs.«423766_j6846177869845_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, run from memories that agree on the arguments, end with their results at `segOut` of those
    arguments. -/
theorem algebraic : Cert.algebraic_KernelIdeal_ReferenceIdeal := by
  intro m ρ m' ρ' _ hagree
  refine ⟨fun c => Cert.SegSum.segOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.SegValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.SegRef.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
